-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x3x128 : Shape := ⟨4, ![8, 128, 3, 128]⟩
abbrev S256x128 : Shape := ⟨2, ![256, 128]⟩
abbrev S1x128 : Shape := ⟨2, ![1, 128]⟩
abbrev S_ : Shape := ⟨0, ![]⟩

class Facts : Prop where
  bcast_S_S8x128x3x128 : S_.BroadcastsInDim S8x128x3x128 (![] : Fin 0 → Fin S8x128x3x128.rank)
  reducesTo_S8x128x3x128_S_d0_1_2_3 : S8x128x3x128.ReducesTo [0, 1, 2, 3] S_
  h_S_ : 0 < S_.numel
  bcast_S_S256x128 : S_.BroadcastsInDim S256x128 (![] : Fin 0 → Fin S256x128.rank)
  reducesTo_S256x128_S_d0_1 : S256x128.ReducesTo [0, 1] S_
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : FVec F S8x128x3x128 .f32) (main_arg1 : FVec F S256x128 .f32) (main_arg2 : FVec F S1x128 .f32) : IVec S_ 1 :=
  let main_v0 : FVec F S8x128x3x128 .f32 := Host.absf main_arg0
  let main_cst : FVec F S_ .f32 := constant S_ .f32 0x7F800000#32
  let main_v1 : FVec F S8x128x3x128 .f32 := broadcastInDim S8x128x3x128 ![] bcast_S_S8x128x3x128 main_cst
  let main_v2 : IVec S8x128x3x128 1 := cmpf .olt main_v0 main_v1
  let main_c : IVec S_ 1 := constantI S_ 1 1#1
  let main_v3 : IVec S_ 1 := (fun x v => Host.reduce IntOp.andi x v reducesTo_S8x128x3x128_S_d0_1_2_3 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  main_v13
-- ==== Kernel.lean ====
abbrev S8x128x3x128 : Shape := ⟨4, ![8, 128, 3, 128]⟩
abbrev S256x128 : Shape := ⟨2, ![256, 128]⟩
abbrev S1x128 : Shape := ⟨2, ![1, 128]⟩
abbrev S128x128 : Shape := ⟨2, ![128, 128]⟩
abbrev S8x128x128x3x128 : Shape := ⟨5, ![8, 128, 128, 3, 128]⟩
abbrev S8x32x3x128 : Shape := ⟨4, ![8, 32, 3, 128]⟩
abbrev S8x16x3x128 : Shape := ⟨4, ![8, 16, 3, 128]⟩
abbrev S8x32x16x3x128 : Shape := ⟨5, ![8, 32, 16, 3, 128]⟩
abbrev S8x32x1x128 : Shape := ⟨4, ![8, 32, 1, 128]⟩
abbrev S8x32x128 : Shape := ⟨3, ![8, 32, 128]⟩
abbrev S8x16x1x128 : Shape := ⟨4, ![8, 16, 1, 128]⟩
abbrev S8x16x128 : Shape := ⟨3, ![8, 16, 128]⟩
abbrev S8x1x16x128 : Shape := ⟨4, ![8, 1, 16, 128]⟩
abbrev S8x32x16x128 : Shape := ⟨4, ![8, 32, 16, 128]⟩
abbrev S1x1x1x128 : Shape := ⟨4, ![1, 1, 1, 128]⟩
abbrev S8x32x16x1x128 : Shape := ⟨5, ![8, 32, 16, 1, 128]⟩

abbrev nBuf : Space → Nat
  | .hbm => 6
  | .vmem => 9
  | .smem => 0
  | _ => 0

abbrev bufTy : (tb : Table) → Fin (tcTables nBuf tb) → BufTy
  | .hbm, ⟨0, _⟩ => ⟨S8x128x3x128, .f32⟩
  | .hbm, ⟨1, _⟩ => ⟨S256x128, .f32⟩
  | .hbm, ⟨2, _⟩ => ⟨S1x128, .f32⟩
  | .hbm, ⟨3, _⟩ => ⟨S128x128, .f32⟩
  | .hbm, ⟨4, _⟩ => ⟨S128x128, .f32⟩
  | .hbm, ⟨5, _⟩ => ⟨S8x128x128x3x128, .f32⟩
  | .local _ .vmem, ⟨0, _⟩ => ⟨S8x32x3x128, .f32⟩
  | .local _ .vmem, ⟨1, _⟩ => ⟨S8x32x3x128, .f32⟩
  | .local _ .vmem, ⟨2, _⟩ => ⟨S8x16x3x128, .f32⟩
  | .local _ .vmem, ⟨3, _⟩ => ⟨S8x16x3x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S8x32x16x3x128, .f32⟩
  | .local _ .vmem, ⟨8, _⟩ => ⟨S8x32x16x3x128, .f32⟩
  | _, _ => ⟨S8x128x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

abbrev stage0_0 : Fin 2 → Memref sig .tc .vmem S8x32x3x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x16x3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x32x16x3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S256x128_S128x128_0_0 : S256x128.Slices ![0, 0] S128x128
  slices_S256x128_S128x128_128_0 : S256x128.Slices ![128, 0] S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  inb_S8x32x3x128_S8x32x1x128_0_0_0_0 : ∀ a, (![0, 0, 0, 0] : Fin 4 → Nat) a + S8x32x1x128.size a ≤ S8x32x3x128.size a
  h_S8x32x1x128 : 0 < S8x32x1x128.numel
  shapeCasts_S8x32x1x128_S8x32x128 : S8x32x1x128.ShapeCasts S8x32x128
  shapeCasts_S8x32x128_S256x128 : S8x32x128.ShapeCasts S256x128
  inb_S8x16x3x128_S8x16x1x128_0_0_0_0 : ∀ a, (![0, 0, 0, 0] : Fin 4 → Nat) a + S8x16x1x128.size a ≤ S8x16x3x128.size a
  h_S8x16x1x128 : 0 < S8x16x1x128.numel
  shapeCasts_S8x16x1x128_S8x16x128 : S8x16x1x128.ShapeCasts S8x16x128
  shapeCasts_S8x16x128_S128x128 : S8x16x128.ShapeCasts S128x128
  shapeCasts_S256x128_S8x32x128 : S256x128.ShapeCasts S8x32x128
  shapeCasts_S128x128_S8x16x128 : S128x128.ShapeCasts S8x16x128
  shapeCasts_S8x32x128_S8x32x1x128 : S8x32x128.ShapeCasts S8x32x1x128
  shapeCasts_S8x16x128_S8x1x16x128 : S8x16x128.ShapeCasts S8x1x16x128
  broadcasts_S8x32x1x128_S8x32x16x128 : S8x32x1x128.Broadcasts S8x32x16x128
  broadcasts_S8x1x16x128_S8x32x16x128 : S8x1x16x128.Broadcasts S8x32x16x128
  shapeCasts_S1x128_S1x1x1x128 : S1x128.ShapeCasts S1x1x1x128
  broadcasts_S1x1x1x128_S8x32x16x128 : S1x1x1x128.Broadcasts S8x32x16x128
  inb_S8x32x3x128_S8x32x1x128_0_0_1_0 : ∀ a, (![0, 0, 1, 0] : Fin 4 → Nat) a + S8x32x1x128.size a ≤ S8x32x3x128.size a
  inb_S8x16x3x128_S8x16x1x128_0_0_1_0 : ∀ a, (![0, 0, 1, 0] : Fin 4 → Nat) a + S8x16x1x128.size a ≤ S8x16x3x128.size a
  inb_S8x32x3x128_S8x32x1x128_0_0_2_0 : ∀ a, (![0, 0, 2, 0] : Fin 4 → Nat) a + S8x32x1x128.size a ≤ S8x32x3x128.size a
  inb_S8x16x3x128_S8x16x1x128_0_0_2_0 : ∀ a, (![0, 0, 2, 0] : Fin 4 → Nat) a + S8x16x1x128.size a ≤ S8x16x3x128.size a
  shapeCasts_S8x32x16x128_S8x32x16x1x128 : S8x32x16x128.ShapeCasts S8x32x16x1x128
  concatenates_S8x32x16x1x128_S8x32x16x1x128_S8x32x16x1x128_S8x32x16x3x128_d3 : Shape.Concatenates [S8x32x16x1x128, S8x32x16x1x128, S8x32x16x1x128] S8x32x16x3x128 3
  inb_S8x32x16x3x128_S8x32x16x3x128_0_0_0_0_0 : ∀ a, (![0, 0, 0, 0, 0] : Fin 5 → Nat) a + S8x32x16x3x128.size a ≤ S8x32x16x3x128.size a
  h_S8x32x16x3x128 : 0 < S8x32x16x3x128.numel
  dot_S256x128_S128x128_S256x128_1_0_0_1_n_n_wf : DotDims.WF S256x128 S128x128 S256x128 [1] [0] [0] [1] [] []
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x3x128.size a ≤ S8x128x3x128.size a
  hwx0_0 : ∀ i : grid0.Coords, EltTy.bits .f32 = 32 ∨ (Rect.block (s := S8x128x3x128) S8x32x3x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x16x3x128.size a ≤ S8x128x3x128.size a
  hwx0_1 : ∀ i : grid0.Coords, EltTy.bits .f32 = 32 ∨ (Rect.block (s := S8x128x3x128) S8x16x3x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x32x16x3x128.size a ≤ S8x128x128x3x128.size a
  hwx0_5 : ∀ i : grid0.Coords, EltTy.bits .f32 = 32 ∨ (Rect.block (s := S8x128x128x3x128) S8x32x16x3x128.size (cc0_transform_5 i) (hinb0_5 i)).WholeWords (EltTy.packing .f32)

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_arg0) S8x32x3x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x16x3x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S8x32x16x3x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x128x3x128 : Shape := ⟨4, ![8, 128, 3, 128]⟩
abbrev S256x128 : Shape := ⟨2, ![256, 128]⟩
abbrev S1x128 : Shape := ⟨2, ![1, 128]⟩
abbrev S128x128 : Shape := ⟨2, ![128, 128]⟩
abbrev S8x128x1x3x128 : Shape := ⟨5, ![8, 128, 1, 3, 128]⟩
abbrev S8x1x128x3x128 : Shape := ⟨5, ![8, 1, 128, 3, 128]⟩
abbrev S8x128x128x3x128 : Shape := ⟨5, ![8, 128, 128, 3, 128]⟩
abbrev S128 : Shape := ⟨1, ![128]⟩
abbrev S1x1x1x1x128 : Shape := ⟨5, ![1, 1, 1, 1, 128]⟩

abbrev nBuf : Space → Nat
  | .hbm => 16
  | .vmem => 0
  | .smem => 0
  | _ => 0

abbrev bufTy : (tb : Table) → Fin (tcTables nBuf tb) → BufTy
  | .hbm, ⟨0, _⟩ => ⟨S8x128x3x128, .f32⟩
  | .hbm, ⟨1, _⟩ => ⟨S256x128, .f32⟩
  | .hbm, ⟨2, _⟩ => ⟨S1x128, .f32⟩
  | .hbm, ⟨3, _⟩ => ⟨S128x128, .f32⟩
  | .hbm, ⟨4, _⟩ => ⟨S128x128, .f32⟩
  | .hbm, ⟨5, _⟩ => ⟨S8x128x3x128, .f32⟩
  | .hbm, ⟨6, _⟩ => ⟨S8x128x3x128, .f32⟩
  | .hbm, ⟨7, _⟩ => ⟨S8x128x1x3x128, .f32⟩
  | .hbm, ⟨8, _⟩ => ⟨S8x1x128x3x128, .f32⟩
  | .hbm, ⟨9, _⟩ => ⟨S8x128x128x3x128, .f32⟩
  | .hbm, ⟨10, _⟩ => ⟨S8x128x128x3x128, .f32⟩
  | .hbm, ⟨11, _⟩ => ⟨S8x128x128x3x128, .f32⟩
  | .hbm, ⟨12, _⟩ => ⟨S128, .f32⟩
  | .hbm, ⟨13, _⟩ => ⟨S1x1x1x1x128, .f32⟩
  | .hbm, ⟨14, _⟩ => ⟨S8x128x128x3x128, .f32⟩
  | .hbm, ⟨15, _⟩ => ⟨S8x128x128x3x128, .f32⟩
  | _, _ => ⟨S8x128x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]

class Facts₀ : Prop where
  slices_S256x128_S128x128_0_0 : S256x128.Slices ![0, 0] S128x128
  slices_S256x128_S128x128_128_0 : S256x128.Slices ![128, 0] S128x128
  bcast_S8x128x3x128_S8x128x1x3x128_0_1_3_4 : S8x128x3x128.BroadcastsInDim S8x128x1x3x128 (![0, 1, 3, 4] : Fin 4 → Fin S8x128x1x3x128.rank)
  bcast_S8x128x3x128_S8x1x128x3x128_0_2_3_4 : S8x128x3x128.BroadcastsInDim S8x1x128x3x128 (![0, 2, 3, 4] : Fin 4 → Fin S8x1x128x3x128.rank)
  bcast_S8x128x1x3x128_S8x128x128x3x128_0_1_2_3_4 : S8x128x1x3x128.BroadcastsInDim S8x128x128x3x128 (![0, 1, 2, 3, 4] : Fin 5 → Fin S8x128x128x3x128.rank)
  bcast_S8x1x128x3x128_S8x128x128x3x128_0_1_2_3_4 : S8x1x128x3x128.BroadcastsInDim S8x128x128x3x128 (![0, 1, 2, 3, 4] : Fin 5 → Fin S8x128x128x3x128.rank)
  shapeCasts_S1x128_S128 : S1x128.ShapeCasts S128
  bcast_S128_S1x1x1x1x128_4 : S128.BroadcastsInDim S1x1x1x1x128 (![4] : Fin 1 → Fin S1x1x1x1x128.rank)
  bcast_S1x1x1x1x128_S8x128x128x3x128_0_1_2_3_4 : S1x1x1x1x128.BroadcastsInDim S8x128x128x3x128 (![0, 1, 2, 3, 4] : Fin 5 → Fin S8x128x128x3x128.rank)
  dot_S8x128x3x128_S128x128_S8x128x3x128_3_0_012_1_n_n_wf : DotDims.WF S8x128x3x128 S128x128 S8x128x3x128 [3] [0] [0, 1, 2] [1] [] []

variable [Facts₀]

def dot_S8x128x3x128_S128x128_S8x128x3x128_3_0_012_1_n_n : DotDims S8x128x3x128 S128x128 S8x128x3x128 where
  lhsContracting := [3]
  rhsContracting := [0]
  lhsNonContracting := [0, 1, 2]
  rhsNonContracting := [1]
  lhsBatch := []
  rhsBatch := []
  wf := dot_S8x128x3x128_S128x128_S8x128x3x128_3_0_012_1_n_n_wf

class Facts : Prop extends Facts₀ where

variable [Facts]
-- ==== Proof.LibSharedFrame.lean ====
/-
  The frame run of a one-region pipeline kernel whose INPUT windows may share an array.

  A kernel handed one array through two input windows (the same features read as a whole-row block and as a
  column tile, say) holds that array's buffer once, so the windows on it cannot each hold it at the full share.
  The pipeline's proof data name a share per window (`Dat.q`); the certificate says how the distinct buffers
  behind the arrays, each whole at the full share, are dealt among the windows (`hsplit`).  Everything else is
  as for a kernel with distinct arrays: a body that uses no semaphore of its own, keeps nothing between grid
  points outside its staging buffers, and leaves the scoped buffers the pipeline does not stage untouched
  (the invariant is `scopedRest`, constant in the point); every unscoped buffer that is no window's array
  bypasses the region and is read back unchanged.  The conclusion is the library's `FramePost`.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (hinj : Function.Injective (cellOf (nD := nD) (τ := τ) cfgs)) (hw : WinFacts₀ (cfgs p).spec)
  (defs₀ : Defs nD τ sig Val Λ₀) (𝒱₀ : Variants)

local notation "cfg" => cfgs p
local notation "𝔻" => Pipeline.defs (fun q => Cfg.toPCfg (Val := Val) (cfgs q)) defs₀

include hinj hw in
/-- THE FRAME RUN for windows that may share arrays: from any memory with zero counters every weakly fair execution
    of @main terminates; every array of the pipeline ends at what the library computes from the proof data
    (`Dat.arrAt … N`) and every other unscoped buffer at what it held when the region was entered (`V`). -/
theorem θ_run_frame_shared
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfg).W, 0 < ((cfg).spec w).block.numel)
    (harr : ∀ w, ((cfg).spec w).arr.IsWhole) (hstage : ∀ w s, (((cfg).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hΦ : ∀ c t, (dats p c).Φ t = scopedRest (Ix := Unit) (Name := ℕ) (U := UR sig nD τ) (Lvl := ℕ) (cfg).spec c) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro HU
      isplitr; · iempintro
      iexact HU)
    (hin := fun c => by
      rw [hΦ]
      iintro ⟨-, HR⟩
      iexact HR)
    (hout := fun c => by
      rw [hΦ]
      iintro HR
      isplitr; · iempintro
      iexact HR)
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end Pipeline

end Idealize.ShloMosaic

end
-- ==== Proof.RunBits.lean ====
/-
  The frame run of the pairwise kernel.

  The grid has 4 × 8 points. At point (gi, gj) the body is handed five input blocks — the node features twice (rows
  32·gi … 32·gi+31 of the node axis as the FIRST nodes, rows 16·gj … 16·gj+15 as the SECOND nodes: two windows on ONE
  array), the two halves of the weight (sliced off by the two host operations before the region) and the bias row — and
  stores one whole 8×32×16×3×128 output block. It keeps nothing between points, uses no semaphore of its own and no
  scratch; it does load the output block before storing it, and discards what it read.

  Because two input windows share the node-feature array, the array's buffer is dealt to them at the two halves of the
  full share; every other array is held whole. What each output block holds after the body is the canonical contents of
  its one covering store, a pure function of the five input blocks.
-/
import proofs.«137841_j9955734192542_1_alg».proof.Proof.Gen.Kernel.Launch
import proofs.«137841_j9955734192542_1_alg».proof.Proof.Gen.Kernel.Skeleton
import proofs.«137841_j9955734192542_1_alg».proof.Proof.Gen.Kernel.Points
import proofs.«137841_j9955734192542_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The core's buffers when the region is entered: the launch contents after the two slices of the weight. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the two slices, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither slice writes the node features, -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
/-- nor the weight, -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
/-- nor the bias. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window whose body leaves its block in place holds that block at every point, fetched there or not: where
the pipeline does not fetch, the block index has not moved and the buffer still holds the previous point's block. The
windows are uncut and never idle. -/

/-- The first nodes' block (fetched when the first grid coordinate moves: every eighth point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The second nodes' block (fetched at every point). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The weight's upper half (fetched once). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The weight's lower half (fetched once). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- The bias row (fetched once). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rL0 : Rect S8x32x3x128 := Rect.unit (s := S8x32x3x128) ![0, 0, 0, 0] S8x32x1x128.size inb_S8x32x3x128_S8x32x1x128_0_0_0_0
abbrev rL1 : Rect S8x32x3x128 := Rect.unit (s := S8x32x3x128) ![0, 0, 1, 0] S8x32x1x128.size inb_S8x32x3x128_S8x32x1x128_0_0_1_0
abbrev rL2 : Rect S8x32x3x128 := Rect.unit (s := S8x32x3x128) ![0, 0, 2, 0] S8x32x1x128.size inb_S8x32x3x128_S8x32x1x128_0_0_2_0
abbrev rR0 : Rect S8x16x3x128 := Rect.unit (s := S8x16x3x128) ![0, 0, 0, 0] S8x16x1x128.size inb_S8x16x3x128_S8x16x1x128_0_0_0_0
abbrev rR1 : Rect S8x16x3x128 := Rect.unit (s := S8x16x3x128) ![0, 0, 1, 0] S8x16x1x128.size inb_S8x16x3x128_S8x16x1x128_0_0_1_0
abbrev rR2 : Rect S8x16x3x128 := Rect.unit (s := S8x16x3x128) ![0, 0, 2, 0] S8x16x1x128.size inb_S8x16x3x128_S8x16x1x128_0_0_2_0
abbrev rO : Rect S8x32x16x3x128 := Rect.unit (s := S8x32x16x3x128) ![0, 0, 0, 0, 0] S8x32x16x3x128.size inb_S8x32x16x3x128_S8x32x16x3x128_0_0_0_0_0

/-! ## What the body leaves in the output window's buffer -/

/-- The output block after the body, from the five input blocks: the one store, of the concatenated three channel slabs,
    each slab the two projections broadcast against each other plus the bias row. -/
def out0_5 (x0 : Vec F S8x32x3x128 .f32) (x1 : Vec F S8x16x3x128 .f32) (x2 : Vec F S128x128 .f32) (x3 : Vec F S128x128 .f32) (x4 : Vec F S1x128 .f32) :
    Vec F S8x32x16x3x128 .f32 :=
  View.canon [⟨rO, k0_pay1 (k0_pay2 (View.ld x2 rW)) (k0_pay3 (View.ld x3 rW)) (View.ld x4 rB)
      (k0_pay4 (View.ld x2 rW) (View.ld x3 rW) (View.ld x4 rB) (View.ld x0 rL0) (View.ld x1 rR0))
      (k0_pay5 (View.ld x0 rL1)) (k0_pay6 (View.ld x1 rR1)) (View.ld x0 rL2) (View.ld x1 rR2)⟩]

/-- The one store is of the whole block. -/
theorem cover0_5 (p0 : Vec F S8x32x16x3x128 .f32) (y : S8x32x16x3x128.Idx) :
    ∃ pc ∈ ([⟨rO, p0⟩] : List (View.Piece (Elt F) S8x32x16x3x128 .f32)), y ∈ pc.1.set :=
  View.cover_of_tiled [⟨rO, p0⟩] S8x32x16x3x128.size (by rfl) y

/-! ## The body's triple -/

set_option maxHeartbeats 2000000 in
/-- On whole staging memrefs, the five inputs' at read contents `x0 … x4` and the output's at anything, the body runs
    to the continuation holding the inputs' as they were and the output's at `out0_5` of them. -/
theorem sound_kernel (c : Dev nD) (E : Set ℕ) (i : grid0.Coords)
    (arg2 : Memref sig .tc .vmem S8x32x3x128 .f32) (harg2 : arg2.IsWhole) (arg3 : Memref sig .tc .vmem S8x16x3x128 .f32) (harg3 : arg3.IsWhole)
    (arg4 : Memref sig .tc .vmem S128x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S8x32x16x3x128 .f32) (harg7 : arg7.IsWhole)
    (x0 : Vec F S8x32x3x128 .f32) (x1 : Vec F S8x16x3x128 .f32) (x2 : Vec F S128x128 .f32) (x3 : Vec F S128x128 .f32) (x4 : Vec F S1x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out0_5 x0 x1 x2 x3 x4)) -∗ K ⟨⟩))
      ⊢ wp frame (wpE (defs₀ (F := F)) Variants.none c none) E (cc0__kernel i arg2 harg2 arg3 harg3 arg4 harg4 arg5 harg5 arg6 harg6 arg7 harg7) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover0_5 _)

/-! ## The pipeline's proof data -/

/-- The proof data on core `c`: the arrays as the region finds them; after the body at point `t` each input's buffer
    still at its block and the output's at `out0_5` of the five input blocks; the invariant is the scoped buffers the
    pipeline does not stage (there are none), constant in the point; nothing owed. The node-feature array is read by
    two windows, so each holds it at one half of the full share; the other inputs are held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.scopedRest (Ix := Unit) (Name := ℕ) (U := UR sig nD τ) (Lvl := ℕ) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays dealt among the windows -/

/-- The five distinct buffers behind the six windows' arrays, each whole at the full share, make the windows' arrays at
    entry: the node features' buffer splits into the two halves of the full share, one for each window that reads it. -/
theorem hsplit (c : Dev nD) :
    (Pipeline.arrBufs spec0 c (V m c) : sProp 𝕄) ⊢ (dats m 0 c).arrays ((dats m 0 c).arrAt · 0) := by
  have e : (Pipeline.arrBufs spec0 c (V m c) : sProp 𝕄)
      = iprop((((c : Thread nD τ).loc main_arg0) ↦{fullShare} V m c main_arg0) ∗ (((c : Thread nD τ).loc main_v0) ↦{fullShare} V m c main_v0)
          ∗ (((c : Thread nD τ).loc main_v1) ↦{fullShare} V m c main_v1) ∗ (((c : Thread nD τ).loc main_arg2) ↦{fullShare} V m c main_arg2)
          ∗ (((c : Thread nD τ).loc main_v2) ↦{fullShare} V m c main_v2)) :=
    bigSep_eq_bigSepL_of_eq [main_arg0, main_v0, main_v1, main_arg2, main_v2] (by decide) (by decide) _
  rw [e]
  unfold Pipeline.Dat.arrays
  rw [bigSep_W0, (arr_whole0 0).set_eq_univ, (arr_whole0 2).set_eq_univ, (arr_whole0 3).set_eq_univ,
    (arr_whole0 4).set_eq_univ, (arr_whole0 5).set_eq_univ]
  iintro ⟨H0, H2, H3, H4, H5⟩
  have halves : ((((c : Thread nD τ).loc main_arg0) ↦{fullShare} V m c main_arg0) : sProp 𝕄)
      ⊢ iprop((((c : Thread nD τ).loc main_arg0) ↦{fullShare.left} V m c main_arg0) ∗ (((c : Thread nD τ).loc main_arg0) ↦{fullShare.right} V m c main_arg0)) :=
    (pointsTo_share (PosShare.mem_left_op_right fullShare)).1
  ihave ⟨Ha, Hb⟩ := halves $$ H0
  isplitl [Ha]; · iexact Ha
  isplitl [Hb]; · iexact Hb
  isplitl [H2]; · iexact H2
  isplitl [H3]; · iexact H3
  isplitl [H4]; · iexact H4
  iexact H5

/-! ## The run and the frame -/

set_option backward.isDefEq.respectTransparency.types false in
/-- From any memory with zero counters every weakly fair execution of @main terminates; every array of the pipeline ends
    at what the proof data computes (an input as the region found it, the output block by block at what the body left)
    and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m) (hΦ := fun _ _ => rfl)

/-- The three argument arrays end as launched: the node features and the bias are inputs of the pipeline and are never
    written; the weight bypasses the region (only its two slices are staged). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans ((((dats m 0 c).arrAt_in 0 rfl _).trans ((A_eq m c 0).trans (V_main_arg0 m c)))),
      ((h c).2 main_arg1 (Pipeline.mem_restRefs_of main_arg1 (by decide) (by decide))).trans (V_main_arg1 m c),
      ((h c).1 4).trans ((((dats m 0 c).arrAt_in 4 rfl _).trans ((A_eq m c 4).trans (V_main_arg2 m c))))⟩) (run_main m ρ)

end Cert.Kernel.Run

end
-- ==== Proof.RunIdeal.lean ====
/-
  The frame run of the pairwise kernel.

  The grid has 4 × 8 points. At point (gi, gj) the body is handed five input blocks — the node features twice (rows
  32·gi … 32·gi+31 of the node axis as the FIRST nodes, rows 16·gj … 16·gj+15 as the SECOND nodes: two windows on ONE
  array), the two halves of the weight (sliced off by the two host operations before the region) and the bias row — and
  stores one whole 8×32×16×3×128 output block. It keeps nothing between points, uses no semaphore of its own and no
  scratch; it does load the output block before storing it, and discards what it read.

  Because two input windows share the node-feature array, the array's buffer is dealt to them at the two halves of the
  full share; every other array is held whole. What each output block holds after the body is the canonical contents of
  its one covering store, a pure function of the five input blocks.
-/
import proofs.«137841_j9955734192542_1_alg».proof.Proof.Gen.KernelIdeal.Launch
import proofs.«137841_j9955734192542_1_alg».proof.Proof.Gen.KernelIdeal.Skeleton
import proofs.«137841_j9955734192542_1_alg».proof.Proof.Gen.KernelIdeal.Points
import proofs.«137841_j9955734192542_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The core's buffers when the region is entered: the launch contents after the two slices of the weight. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the two slices, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither slice writes the node features, -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
/-- nor the weight, -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
/-- nor the bias. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window whose body leaves its block in place holds that block at every point, fetched there or not: where
the pipeline does not fetch, the block index has not moved and the buffer still holds the previous point's block. The
windows are uncut and never idle. -/

/-- The first nodes' block (fetched when the first grid coordinate moves: every eighth point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The second nodes' block (fetched at every point). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The weight's upper half (fetched once). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The weight's lower half (fetched once). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- The bias row (fetched once). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rL0 : Rect S8x32x3x128 := Rect.unit (s := S8x32x3x128) ![0, 0, 0, 0] S8x32x1x128.size inb_S8x32x3x128_S8x32x1x128_0_0_0_0
abbrev rL1 : Rect S8x32x3x128 := Rect.unit (s := S8x32x3x128) ![0, 0, 1, 0] S8x32x1x128.size inb_S8x32x3x128_S8x32x1x128_0_0_1_0
abbrev rL2 : Rect S8x32x3x128 := Rect.unit (s := S8x32x3x128) ![0, 0, 2, 0] S8x32x1x128.size inb_S8x32x3x128_S8x32x1x128_0_0_2_0
abbrev rR0 : Rect S8x16x3x128 := Rect.unit (s := S8x16x3x128) ![0, 0, 0, 0] S8x16x1x128.size inb_S8x16x3x128_S8x16x1x128_0_0_0_0
abbrev rR1 : Rect S8x16x3x128 := Rect.unit (s := S8x16x3x128) ![0, 0, 1, 0] S8x16x1x128.size inb_S8x16x3x128_S8x16x1x128_0_0_1_0
abbrev rR2 : Rect S8x16x3x128 := Rect.unit (s := S8x16x3x128) ![0, 0, 2, 0] S8x16x1x128.size inb_S8x16x3x128_S8x16x1x128_0_0_2_0
abbrev rO : Rect S8x32x16x3x128 := Rect.unit (s := S8x32x16x3x128) ![0, 0, 0, 0, 0] S8x32x16x3x128.size inb_S8x32x16x3x128_S8x32x16x3x128_0_0_0_0_0

/-! ## What the body leaves in the output window's buffer -/

/-- The output block after the body, from the five input blocks: the one store, of the concatenated three channel slabs,
    each slab the two projections broadcast against each other plus the bias row. -/
def out0_5 (x0 : Vec F S8x32x3x128 .f32) (x1 : Vec F S8x16x3x128 .f32) (x2 : Vec F S128x128 .f32) (x3 : Vec F S128x128 .f32) (x4 : Vec F S1x128 .f32) :
    Vec F S8x32x16x3x128 .f32 :=
  View.canon [⟨rO, k0_pay1 (k0_pay2 (View.ld x2 rW)) (k0_pay3 (View.ld x3 rW)) (View.ld x4 rB)
      (k0_pay4 (View.ld x2 rW) (View.ld x3 rW) (View.ld x4 rB) (View.ld x0 rL0) (View.ld x1 rR0))
      (k0_pay5 (View.ld x0 rL1)) (k0_pay6 (View.ld x1 rR1)) (View.ld x0 rL2) (View.ld x1 rR2)⟩]

/-- The one store is of the whole block. -/
theorem cover0_5 (p0 : Vec F S8x32x16x3x128 .f32) (y : S8x32x16x3x128.Idx) :
    ∃ pc ∈ ([⟨rO, p0⟩] : List (View.Piece (Elt F) S8x32x16x3x128 .f32)), y ∈ pc.1.set :=
  View.cover_of_tiled [⟨rO, p0⟩] S8x32x16x3x128.size (by rfl) y

/-! ## The body's triple -/

set_option maxHeartbeats 2000000 in
/-- On whole staging memrefs, the five inputs' at read contents `x0 … x4` and the output's at anything, the body runs
    to the continuation holding the inputs' as they were and the output's at `out0_5` of them. -/
theorem sound_kernel (c : Dev nD) (E : Set ℕ) (i : grid0.Coords)
    (arg2 : Memref sig .tc .vmem S8x32x3x128 .f32) (harg2 : arg2.IsWhole) (arg3 : Memref sig .tc .vmem S8x16x3x128 .f32) (harg3 : arg3.IsWhole)
    (arg4 : Memref sig .tc .vmem S128x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S8x32x16x3x128 .f32) (harg7 : arg7.IsWhole)
    (x0 : Vec F S8x32x3x128 .f32) (x1 : Vec F S8x16x3x128 .f32) (x2 : Vec F S128x128 .f32) (x3 : Vec F S128x128 .f32) (x4 : Vec F S1x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out0_5 x0 x1 x2 x3 x4)) -∗ K ⟨⟩))
      ⊢ wp frame (wpE (defs₀ (F := F)) Variants.none c none) E (cc0__kernel i arg2 harg2 arg3 harg3 arg4 harg4 arg5 harg5 arg6 harg6 arg7 harg7) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover0_5 _)

/-! ## The pipeline's proof data -/

/-- The proof data on core `c`: the arrays as the region finds them; after the body at point `t` each input's buffer
    still at its block and the output's at `out0_5` of the five input blocks; the invariant is the scoped buffers the
    pipeline does not stage (there are none), constant in the point; nothing owed. The node-feature array is read by
    two windows, so each holds it at one half of the full share; the other inputs are held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.scopedRest (Ix := Unit) (Name := ℕ) (U := UR sig nD τ) (Lvl := ℕ) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays dealt among the windows -/

/-- The five distinct buffers behind the six windows' arrays, each whole at the full share, make the windows' arrays at
    entry: the node features' buffer splits into the two halves of the full share, one for each window that reads it. -/
theorem hsplit (c : Dev nD) :
    (Pipeline.arrBufs spec0 c (V m c) : sProp 𝕄) ⊢ (dats m 0 c).arrays ((dats m 0 c).arrAt · 0) := by
  have e : (Pipeline.arrBufs spec0 c (V m c) : sProp 𝕄)
      = iprop((((c : Thread nD τ).loc main_arg0) ↦{fullShare} V m c main_arg0) ∗ (((c : Thread nD τ).loc main_v0) ↦{fullShare} V m c main_v0)
          ∗ (((c : Thread nD τ).loc main_v1) ↦{fullShare} V m c main_v1) ∗ (((c : Thread nD τ).loc main_arg2) ↦{fullShare} V m c main_arg2)
          ∗ (((c : Thread nD τ).loc main_v2) ↦{fullShare} V m c main_v2)) :=
    bigSep_eq_bigSepL_of_eq [main_arg0, main_v0, main_v1, main_arg2, main_v2] (by decide) (by decide) _
  rw [e]
  unfold Pipeline.Dat.arrays
  rw [bigSep_W0, (arr_whole0 0).set_eq_univ, (arr_whole0 2).set_eq_univ, (arr_whole0 3).set_eq_univ,
    (arr_whole0 4).set_eq_univ, (arr_whole0 5).set_eq_univ]
  iintro ⟨H0, H2, H3, H4, H5⟩
  have halves : ((((c : Thread nD τ).loc main_arg0) ↦{fullShare} V m c main_arg0) : sProp 𝕄)
      ⊢ iprop((((c : Thread nD τ).loc main_arg0) ↦{fullShare.left} V m c main_arg0) ∗ (((c : Thread nD τ).loc main_arg0) ↦{fullShare.right} V m c main_arg0)) :=
    (pointsTo_share (PosShare.mem_left_op_right fullShare)).1
  ihave ⟨Ha, Hb⟩ := halves $$ H0
  isplitl [Ha]; · iexact Ha
  isplitl [Hb]; · iexact Hb
  isplitl [H2]; · iexact H2
  isplitl [H3]; · iexact H3
  isplitl [H4]; · iexact H4
  iexact H5

/-! ## The run and the frame -/

set_option backward.isDefEq.respectTransparency.types false in
/-- From any memory with zero counters every weakly fair execution of @main terminates; every array of the pipeline ends
    at what the proof data computes (an input as the region found it, the output block by block at what the body left)
    and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m) (hΦ := fun _ _ => rfl)

/-- The three argument arrays end as launched: the node features and the bias are inputs of the pipeline and are never
    written; the weight bypasses the region (only its two slices are staged). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans ((((dats m 0 c).arrAt_in 0 rfl _).trans ((A_eq m c 0).trans (V_main_arg0 m c)))),
      ((h c).2 main_arg1 (Pipeline.mem_restRefs_of main_arg1 (by decide) (by decide))).trans (V_main_arg1 m c),
      ((h c).1 4).trans ((((dats m 0 c).arrAt_in 4 rfl _).trans ((A_eq m c 4).trans (V_main_arg2 m c))))⟩) (run_main m ρ)

end Cert.KernelIdeal.Run

end
-- ==== Proof.TileValue.lean ====
/-
  One tile of the kernel, read at an index.

  At a grid point the body holds 32 first nodes (three channel slabs `l0 l1 l2`, each 8×32×1×128), 16 second nodes
  (`r0 r1 r2`, each 8×16×1×128), the two weight halves and the bias row, and stores one 8×32×16×3×128 block. Its entry at
  `(b, i, j, c, k)` is the projection of first node `i`'s channel-`c` row by the upper half, plus that of second node
  `j`'s channel-`c` row by the lower half, plus the bias at `k`.
-/
import proofs.«137841_j9955734192542_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Idealize.ShloMosaic Idealize.ShloMosaic.ValueIdx Cert.KernelIdeal Cert.KernelIdeal.Gen

/-- The channel-`c` one of three slabs. -/
abbrev chan {α : Type} (c : Fin 3) (a0 a1 a2 : α) : α := match c with | ⟨0, _⟩ => a0 | ⟨1, _⟩ => a1 | ⟨2, _⟩ => a2

/-! ### The 256×128 by 128×128 product at an index -/

private theorem lhsA_0 (i : S256x128.Idx) (q : dot_S256x128_S128x128_S256x128_1_0_0_1_n_n.contr.Idx) :
    (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
private theorem lhsA_1 (i : S256x128.Idx) (q : dot_S256x128_S128x128_S256x128_1_0_0_1_n_n.contr.Idx) :
    (dot_S256x128_S128x128_S256x128_1_0_0_1_n_n.lhsIdx i q 1).val = (q ⟨0, by decide⟩).val :=
  dot_S256x128_S128x128_S256x128_1_0_0_1_n_n.lhsIdx_val_of_single rfl i q
private theorem rhsA_0 (i : S256x128.Idx) (q : dot_S256x128_S128x128_S256x128_1_0_0_1_n_n.contr.Idx) :
    (dot_S256x128_S128x128_S256x128_1_0_0_1_n_n.rhsIdx i q 0).val = (q ⟨0, by decide⟩).val :=
  dot_S256x128_S128x128_S256x128_1_0_0_1_n_n.rhsIdx_val_of_single rfl i q
private theorem rhsA_1 (i : S256x128.Idx) (q : dot_S256x128_S128x128_S256x128_1_0_0_1_n_n.contr.Idx) :
    (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl

/-- The product into a zero accumulator, at row `p` and column `k`: the row of the left factor against the column of the
    right one. -/
private theorem matmulA_apply (x : FVec Ideal S256x128 .bf16) (w : FVec Ideal S128x128 .bf16) (p : Fin 256) (k : Fin 128) :
    matmul dot_S256x128_S128x128_S256x128_1_0_0_1_n_n none x w (constant (F := Ideal) S256x128 .f32 0x00000000#32) (ix2 p k)
      = ∑ f : Fin 128, x (ix2 p f) * w (ix2 f k) := by
  simp only [matmul]
  rw [Ideal.matmul_constant_zero_apply, ← Equiv.sum_comp (contrEquiv1 dot_S256x128_S128x128_S256x128_1_0_0_1_n_n 128 rfl rfl).symm]
  refine Finset.sum_congr rfl fun f _ => ?_
  have hf := contrEquiv1_symm_val dot_S256x128_S128x128_S256x128_1_0_0_1_n_n 128 rfl rfl f
  have el : dot_S256x128_S128x128_S256x128_1_0_0_1_n_n.lhsIdx (ix2 p k) ((contrEquiv1 dot_S256x128_S128x128_S256x128_1_0_0_1_n_n 128 rfl rfl).symm f) = ix2 p f := funext fun a => Fin.ext (by
    match a with
    | ⟨0, _⟩ => exact lhsA_0 _ _
    | ⟨1, _⟩ => exact (lhsA_1 _ _).trans hf)
  have er : dot_S256x128_S128x128_S256x128_1_0_0_1_n_n.rhsIdx (ix2 p k) ((contrEquiv1 dot_S256x128_S128x128_S256x128_1_0_0_1_n_n 128 rfl rfl).symm f) = ix2 f k := funext fun a => Fin.ext (by
    match a with
    | ⟨0, _⟩ => exact (rhsA_0 _ _).trans hf
    | ⟨1, _⟩ => exact rhsA_1 _ _)
  rw [el, er]

/-! ### The 128×128 by 128×128 product at an index -/

private theorem lhsB_0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
private theorem lhsB_1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q
private theorem rhsB_0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q
private theorem rhsB_1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-- The product into a zero accumulator, at row `p` and column `k`: the row of the left factor against the column of the
    right one. -/
private theorem matmulB_apply (x : FVec Ideal S128x128 .bf16) (w : FVec Ideal S128x128 .bf16) (p : Fin 128) (k : Fin 128) :
    matmul dot_S128x128_S128x128_S128x128_1_0_0_1_n_n none x w (constant (F := Ideal) S128x128 .f32 0x00000000#32) (ix2 p k)
      = ∑ f : Fin 128, x (ix2 p f) * w (ix2 f k) := by
  simp only [matmul]
  rw [Ideal.matmul_constant_zero_apply, ← Equiv.sum_comp (contrEquiv1 dot_S128x128_S128x128_S128x128_1_0_0_1_n_n 128 rfl rfl).symm]
  refine Finset.sum_congr rfl fun f _ => ?_
  have hf := contrEquiv1_symm_val dot_S128x128_S128x128_S128x128_1_0_0_1_n_n 128 rfl rfl f
  have el : dot_S128x128_S128x128_S128x128_1_0_0_1_n_n.lhsIdx (ix2 p k) ((contrEquiv1 dot_S128x128_S128x128_S128x128_1_0_0_1_n_n 128 rfl rfl).symm f) = ix2 p f := funext fun a => Fin.ext (by
    match a with
    | ⟨0, _⟩ => exact lhsB_0 _ _
    | ⟨1, _⟩ => exact (lhsB_1 _ _).trans hf)
  have er : dot_S128x128_S128x128_S128x128_1_0_0_1_n_n.rhsIdx (ix2 p k) ((contrEquiv1 dot_S128x128_S128x128_S128x128_1_0_0_1_n_n 128 rfl rfl).symm f) = ix2 f k := funext fun a => Fin.ext (by
    match a with
    | ⟨0, _⟩ => exact (rhsB_0 _ _).trans hf
    | ⟨1, _⟩ => exact rhsB_1 _ _)
  rw [el, er]

/-! ### The layout operations around a product, at an index

Row `b * 32 + i` of the 256×128 matrix is first node `i` of batch `b`; row `b * 16 + j` of the 128×128 matrix is second node
`j` of batch `b`. -/

/-- The left factor of the first product at row `b * 32 + i`: the loaded first-node row. -/
private theorem inA_apply (l : Vec Ideal S8x32x1x128 .f32) (b : Fin 8) (i : Fin 32) (f : Fin 128) (p : Fin 256)
    (hp : p.val = b.val * 32 + i.val) : k0_pay5 (F := Ideal) l (ix2 p f) = l (ix4 b i (0 : Fin 1) f) := by
  unfold k0_pay5
  refine (shapeCast_apply _ _ (ix2 p f) (ix3 b i f) ?_).trans ?_
  · rw [Shape.rowMajor_val_three, Shape.rowMajor_val_two]
    show (b.val * 32 + i.val) * 128 + f.val = p.val * 128 + f.val
    rw [hp]
  · refine (truncf_apply (ψ := .bf16) _ bitsLt_bf16_f32 _).trans ?_
    refine shapeCast_apply l _ (ix3 b i f) (ix4 b i (0 : Fin 1) f) ?_
    rw [Shape.rowMajor_val_four, Shape.rowMajor_val_three]
    show ((b.val * 32 + i.val) * 1 + 0) * 128 + f.val = (b.val * 32 + i.val) * 128 + f.val
    omega

/-- The left factor of the second product at row `b * 16 + j`: the loaded second-node row. -/
private theorem inB_apply (r : Vec Ideal S8x16x1x128 .f32) (b : Fin 8) (j : Fin 16) (f : Fin 128) (q : Fin 128)
    (hq : q.val = b.val * 16 + j.val) :
    shapeCast S128x128 (k0_pay6 (F := Ideal) r) shapeCasts_S8x16x128_S128x128 (ix2 q f) = r (ix4 b j (0 : Fin 1) f) := by
  unfold k0_pay6
  refine (shapeCast_apply _ _ (ix2 q f) (ix3 b j f) ?_).trans ?_
  · rw [Shape.rowMajor_val_three, Shape.rowMajor_val_two]
    show (b.val * 16 + j.val) * 128 + f.val = q.val * 128 + f.val
    rw [hq]
  · refine (truncf_apply (ψ := .bf16) _ bitsLt_bf16_f32 _).trans ?_
    refine shapeCast_apply r _ (ix3 b j f) (ix4 b j (0 : Fin 1) f) ?_
    rw [Shape.rowMajor_val_four, Shape.rowMajor_val_three]
    show ((b.val * 16 + j.val) * 1 + 0) * 128 + f.val = (b.val * 16 + j.val) * 128 + f.val
    omega

/-- The first product, reshaped to batches of first nodes and repeated over the second nodes, at `(b, i, j, k)`: its
    row `b * 32 + i`. -/
private theorem outA_apply (m : FVec Ideal S256x128 .f32) (b : Fin 8) (i : Fin 32) (j : Fin 16) (k : Fin 128) (p : Fin 256)
    (hp : p.val = b.val * 32 + i.val) :
    broadcastTo S8x32x16x128 (shapeCast S8x32x1x128 (shapeCast S8x32x128 m shapeCasts_S256x128_S8x32x128)
      shapeCasts_S8x32x128_S8x32x1x128) broadcasts_S8x32x1x128_S8x32x16x128 (ix4 b i j k) = m (ix2 p k) := by
  refine (broadcastTo_apply _ _ (ix4 b i j k) (ix4 b i (0 : Fin 1) k) fun a => ?_).trans ?_
  · match a with
    | ⟨0, _⟩ => rfl
    | ⟨1, _⟩ => rfl
    | ⟨2, _⟩ => rfl
    | ⟨3, _⟩ => rfl
  · refine (shapeCast_apply _ _ (ix4 b i (0 : Fin 1) k) (ix3 b i k) ?_).trans ?_
    · rw [Shape.rowMajor_val_four, Shape.rowMajor_val_three]
      show (b.val * 32 + i.val) * 128 + k.val = ((b.val * 32 + i.val) * 1 + 0) * 128 + k.val
      omega
    · refine shapeCast_apply m _ (ix3 b i k) (ix2 p k) ?_
      rw [Shape.rowMajor_val_three, Shape.rowMajor_val_two]
      show p.val * 128 + k.val = (b.val * 32 + i.val) * 128 + k.val
      rw [hp]

/-- The second product, reshaped to batches of second nodes and repeated over the first nodes, at `(b, i, j, k)`: its
    row `b * 16 + j`. -/
private theorem outB_apply (m : FVec Ideal S128x128 .f32) (b : Fin 8) (i : Fin 32) (j : Fin 16) (k : Fin 128) (q : Fin 128)
    (hq : q.val = b.val * 16 + j.val) :
    broadcastTo S8x32x16x128 (shapeCast S8x1x16x128 (shapeCast S8x16x128 m shapeCasts_S128x128_S8x16x128)
      shapeCasts_S8x16x128_S8x1x16x128) broadcasts_S8x1x16x128_S8x32x16x128 (ix4 b i j k) = m (ix2 q k) := by
  refine (broadcastTo_apply _ _ (ix4 b i j k) (ix4 b (0 : Fin 1) j k) fun a => ?_).trans ?_
  · match a with
    | ⟨0, _⟩ => rfl
    | ⟨1, _⟩ => rfl
    | ⟨2, _⟩ => rfl
    | ⟨3, _⟩ => rfl
  · refine (shapeCast_apply _ _ (ix4 b (0 : Fin 1) j k) (ix3 b j k) ?_).trans ?_
    · rw [Shape.rowMajor_val_four, Shape.rowMajor_val_three]
      show (b.val * 16 + j.val) * 128 + k.val = ((b.val * 1 + 0) * 16 + j.val) * 128 + k.val
      omega
    · refine shapeCast_apply m _ (ix3 b j k) (ix2 q k) ?_
      rw [Shape.rowMajor_val_three, Shape.rowMajor_val_two]
      show q.val * 128 + k.val = (b.val * 16 + j.val) * 128 + k.val
      rw [hq]

/-- The bias row repeated over the block, at `(b, i, j, k)`: its entry `k`. -/
private theorem bias_apply (β : Vec Ideal S1x128 .f32) (b : Fin 8) (i : Fin 32) (j : Fin 16) (k : Fin 128) :
    broadcastTo S8x32x16x128 (shapeCast S1x1x1x128 β shapeCasts_S1x128_S1x1x1x128) broadcasts_S1x1x1x128_S8x32x16x128
      (ix4 b i j k) = β (ix2 (0 : Fin 1) k) := by
  refine (broadcastTo_apply _ _ (ix4 b i j k) (ix4 (0 : Fin 1) (0 : Fin 1) (0 : Fin 1) k) fun a => ?_).trans ?_
  · match a with
    | ⟨0, _⟩ => rfl
    | ⟨1, _⟩ => rfl
    | ⟨2, _⟩ => rfl
    | ⟨3, _⟩ => rfl
  · refine shapeCast_apply β _ (ix4 (0 : Fin 1) (0 : Fin 1) (0 : Fin 1) k) (ix2 (0 : Fin 1) k) ?_
    rw [Shape.rowMajor_val_four, Shape.rowMajor_val_two]
    show 0 * 128 + k.val = ((0 * 1 + 0) * 1 + 0) * 128 + k.val
    omega

/-- The upper weight half in the product's format is the upper weight half. -/
private theorem w1_apply (w : Vec Ideal S128x128 .f32) (i : S128x128.Idx) : k0_pay2 (F := Ideal) w i = w i := by
  unfold k0_pay2
  rw [shapeCast_self]
  rfl

/-- The lower weight half in the product's format is the lower weight half. -/
private theorem w2_apply (w : Vec Ideal S128x128 .f32) (i : S128x128.Idx) : k0_pay3 (F := Ideal) w i = w i := by
  unfold k0_pay3
  rw [shapeCast_self]
  rfl

/-! ### One channel's slab -/

/-- One channel's slab from its two factors in the products' layout: the first product repeated over the second
    nodes, plus the second product repeated over the first nodes, plus the bias row. -/
private def slab (x : FVec Ideal S256x128 .bf16) (y : FVec Ideal S128x128 .bf16) (u v : FVec Ideal S128x128 .bf16)
    (β : Vec Ideal S1x128 .f32) : FVec Ideal S8x32x16x128 .f32 :=
  addf (addf
    (broadcastTo S8x32x16x128 (shapeCast S8x32x1x128 (shapeCast S8x32x128
      (matmul dot_S256x128_S128x128_S256x128_1_0_0_1_n_n none x u (constant (F := Ideal) S256x128 .f32 0x00000000#32))
      shapeCasts_S256x128_S8x32x128) shapeCasts_S8x32x128_S8x32x1x128) broadcasts_S8x32x1x128_S8x32x16x128)
    (broadcastTo S8x32x16x128 (shapeCast S8x1x16x128 (shapeCast S8x16x128
      (matmul dot_S128x128_S128x128_S128x128_1_0_0_1_n_n none y v (constant (F := Ideal) S128x128 .f32 0x00000000#32))
      shapeCasts_S128x128_S8x16x128) shapeCasts_S8x16x128_S8x1x16x128) broadcasts_S8x1x16x128_S8x32x16x128))
    (broadcastTo S8x32x16x128 (shapeCast S1x1x1x128 β shapeCasts_S1x128_S1x1x1x128) broadcasts_S1x1x1x128_S8x32x16x128)

/-- A slab at `(b, i, j, k)`: row `b * 32 + i` of the first factor against column `k` of the upper half, plus row
    `b * 16 + j` of the second factor against column `k` of the lower half, plus the bias at `k`. -/
private theorem slab_apply (x : FVec Ideal S256x128 .bf16) (y : FVec Ideal S128x128 .bf16) (u v : FVec Ideal S128x128 .bf16)
    (β : Vec Ideal S1x128 .f32) (b : Fin 8) (i : Fin 32) (j : Fin 16) (k : Fin 128) (p : Fin 256) (q : Fin 128)
    (hp : p.val = b.val * 32 + i.val) (hq : q.val = b.val * 16 + j.val) :
    slab x y u v β (ix4 b i j k)
      = ((∑ f : Fin 128, x (ix2 p f) * u (ix2 f k)) + (∑ f : Fin 128, y (ix2 q f) * v (ix2 f k))) + β (ix2 (0 : Fin 1) k) := by
  unfold slab
  rw [addf_apply, addf_apply, outA_apply _ b i j k p hp, outB_apply _ b i j k q hq, bias_apply, matmulA_apply, matmulB_apply]

/-- A slab of loaded rows at `(b, i, j, k)`: first node `i`'s row projected by the upper half, plus second node `j`'s row
    projected by the lower half, plus the bias. -/
private theorem slab_loaded_apply (w1 w2 : Vec Ideal S128x128 .f32) (β : Vec Ideal S1x128 .f32)
    (l : Vec Ideal S8x32x1x128 .f32) (r : Vec Ideal S8x16x1x128 .f32) (b : Fin 8) (i : Fin 32) (j : Fin 16) (k : Fin 128) :
    slab (k0_pay5 (F := Ideal) l) (shapeCast S128x128 (k0_pay6 (F := Ideal) r) shapeCasts_S8x16x128_S128x128)
        (k0_pay2 (F := Ideal) w1) (k0_pay3 (F := Ideal) w2) β (ix4 b i j k)
      = ((∑ f : Fin 128, l (ix4 b i (0 : Fin 1) f) * w1 (ix2 f k)) + (∑ f : Fin 128, r (ix4 b j (0 : Fin 1) f) * w2 (ix2 f k)))
        + β (ix2 (0 : Fin 1) k) := by
  have hp : (⟨b.val * 32 + i.val, by omega⟩ : Fin 256).val = b.val * 32 + i.val := rfl
  have hq : (⟨b.val * 16 + j.val, by omega⟩ : Fin 128).val = b.val * 16 + j.val := rfl
  rw [slab_apply _ _ _ _ _ b i j k _ _ hp hq]
  refine congrArg (· + β (ix2 (0 : Fin 1) k)) (congrArg₂ (· + ·) ?_ ?_)
  · exact Finset.sum_congr rfl fun f _ => by rw [inA_apply l b i f _ hp, w1_apply]
  · exact Finset.sum_congr rfl fun f _ => by rw [inB_apply r b j f _ hq, w2_apply]

/-- Channel 0's slab is the slab of its loaded rows. -/
private theorem pay4_eq (w1 w2 : Vec Ideal S128x128 .f32) (β : Vec Ideal S1x128 .f32)
    (l : Vec Ideal S8x32x1x128 .f32) (r : Vec Ideal S8x16x1x128 .f32) :
    k0_pay4 (F := Ideal) w1 w2 β l r
      = slab (k0_pay5 (F := Ideal) l) (shapeCast S128x128 (k0_pay6 (F := Ideal) r) shapeCasts_S8x16x128_S128x128)
          (k0_pay2 (F := Ideal) w1) (k0_pay3 (F := Ideal) w2) β := rfl

/-! ### The three slabs side by side -/

/-- A slab with a unit channel axis put in reads, at channel 0, the slab. -/
private theorem unit_apply (x : FVec Ideal S8x32x16x128 .f32) (b : Fin 8) (i : Fin 32) (j : Fin 16) (k : Fin 128) :
    shapeCast S8x32x16x1x128 x shapeCasts_S8x32x16x128_S8x32x16x1x128 (ix5 b i j (0 : Fin 1) k) = x (ix4 b i j k) := by
  refine shapeCast_apply x _ (ix5 b i j (0 : Fin 1) k) (ix4 b i j k) ?_
  rw [Shape.rowMajor_val_five, Shape.rowMajor_val_four]
  show ((b.val * 32 + i.val) * 16 + j.val) * 128 + k.val = (((b.val * 32 + i.val) * 16 + j.val) * 1 + 0) * 128 + k.val
  omega

/-- Three unit-channel pieces side by side along the channel axis read, at channel `n`, piece `n`. -/
private theorem cat_apply (y0 y1 y2 : FVec Ideal S8x32x16x1x128 .f32) (b : Fin 8) (i : Fin 32) (j : Fin 16) (c : Fin 3) (k : Fin 128) :
    concatenate S8x32x16x3x128 3 [⟨S8x32x16x1x128, y0⟩, ⟨S8x32x16x1x128, y1⟩, ⟨S8x32x16x1x128, y2⟩]
        concatenates_S8x32x16x1x128_S8x32x16x1x128_S8x32x16x1x128_S8x32x16x3x128_d3 (ix5 b i j c k)
      = chan c y0 y1 y2 (ix5 b i j (0 : Fin 1) k) := by
  have hi : ∀ a : Fin S8x32x16x1x128.rank, a.cast (rfl : S8x32x16x1x128.rank = S8x32x16x3x128.rank) ≠ 3 →
      (ix5 b i j (0 : Fin 1) k a).val = (ix5 b i j c k (a.cast rfl)).val := fun a ha => by
    match a, ha with
    | ⟨0, _⟩, _ => rfl
    | ⟨1, _⟩, _ => rfl
    | ⟨2, _⟩, _ => rfl
    | ⟨3, _⟩, ha => exact (ha (Fin.ext rfl)).elim
    | ⟨4, _⟩, _ => rfl
  match c with
  | ⟨0, h0⟩ =>
    exact concatenate_apply_piece 3 [⟨S8x32x16x1x128, y0⟩, ⟨S8x32x16x1x128, y1⟩, ⟨S8x32x16x1x128, y2⟩] concatenates_S8x32x16x1x128_S8x32x16x1x128_S8x32x16x1x128_S8x32x16x3x128_d3
      (ix5 b i j (⟨0, h0⟩ : Fin 3) k) 0 (by simp) S8x32x16x1x128 y0 rfl rfl 0 rfl (ix5 b i j (0 : Fin 1) k) hi rfl
  | ⟨1, h1⟩ =>
    exact concatenate_apply_piece 3 [⟨S8x32x16x1x128, y0⟩, ⟨S8x32x16x1x128, y1⟩, ⟨S8x32x16x1x128, y2⟩] concatenates_S8x32x16x1x128_S8x32x16x1x128_S8x32x16x1x128_S8x32x16x3x128_d3
      (ix5 b i j (⟨1, h1⟩ : Fin 3) k) 1 (by simp) S8x32x16x1x128 y1 rfl rfl 1 rfl (ix5 b i j (0 : Fin 1) k) hi rfl
  | ⟨2, h2⟩ =>
    exact concatenate_apply_piece 3 [⟨S8x32x16x1x128, y0⟩, ⟨S8x32x16x1x128, y1⟩, ⟨S8x32x16x1x128, y2⟩] concatenates_S8x32x16x1x128_S8x32x16x1x128_S8x32x16x1x128_S8x32x16x3x128_d3
      (ix5 b i j (⟨2, h2⟩ : Fin 3) k) 2 (by simp) S8x32x16x1x128 y2 rfl rfl 2 rfl (ix5 b i j (0 : Fin 1) k) hi rfl

/-- The stored block is the three channels' slabs, each with a unit channel axis, side by side. -/
private theorem pay1_eq (u v : FVec Ideal S128x128 .bf16) (β : Vec Ideal S1x128 .f32) (s0 : FVec Ideal S8x32x16x128 .f32)
    (x1 : FVec Ideal S256x128 .bf16) (y1 : FVec Ideal S8x16x128 .bf16) (l2 : Vec Ideal S8x32x1x128 .f32)
    (r2 : Vec Ideal S8x16x1x128 .f32) :
    k0_pay1 (F := Ideal) u v β s0 x1 y1 l2 r2
      = concatenate S8x32x16x3x128 3
          [⟨S8x32x16x1x128, shapeCast S8x32x16x1x128 s0 shapeCasts_S8x32x16x128_S8x32x16x1x128⟩,
           ⟨S8x32x16x1x128, shapeCast S8x32x16x1x128
              (slab x1 (shapeCast S128x128 y1 shapeCasts_S8x16x128_S128x128) u v β) shapeCasts_S8x32x16x128_S8x32x16x1x128⟩,
           ⟨S8x32x16x1x128, shapeCast S8x32x16x1x128
              (slab (k0_pay5 (F := Ideal) l2) (shapeCast S128x128 (k0_pay6 (F := Ideal) r2) shapeCasts_S8x16x128_S128x128) u v β)
              shapeCasts_S8x32x16x128_S8x32x16x1x128⟩]
          concatenates_S8x32x16x1x128_S8x32x16x1x128_S8x32x16x1x128_S8x32x16x3x128_d3 := rfl

/-- The stored block at `(b, i, j, c, k)`. -/
theorem tile_apply (w1 w2 : Vec Ideal S128x128 .f32) (β : Vec Ideal S1x128 .f32)
    (l0 l1 l2 : Vec Ideal S8x32x1x128 .f32) (r0 r1 r2 : Vec Ideal S8x16x1x128 .f32)
    (b : Fin 8) (i : Fin 32) (j : Fin 16) (c : Fin 3) (k : Fin 128) :
    k0_pay1 (F := Ideal) (k0_pay2 w1) (k0_pay3 w2) β (k0_pay4 w1 w2 β l0 r0) (k0_pay5 l1) (k0_pay6 r1) l2 r2 (ix5 b i j c k)
      = ((∑ f : Fin 128, chan c l0 l1 l2 (ix4 b i (0 : Fin 1) f) * w1 (ix2 f k))
          + (∑ f : Fin 128, chan c r0 r1 r2 (ix4 b j (0 : Fin 1) f) * w2 (ix2 f k)))
        + β (ix2 (0 : Fin 1) k) := by
  refine (congrFun (pay1_eq _ _ _ _ _ _ _ _) _).trans ((cat_apply _ _ _ b i j c k).trans ?_)
  match c with
  | ⟨0, _⟩ =>
    refine (unit_apply _ b i j k).trans ?_
    rw [pay4_eq]
    exact slab_loaded_apply w1 w2 β l0 r0 b i j k
  | ⟨1, _⟩ =>
    refine (unit_apply _ b i j k).trans ?_
    exact slab_loaded_apply w1 w2 β l1 r1 b i j k
  | ⟨2, _⟩ =>
    refine (unit_apply _ b i j k).trans ?_
    exact slab_loaded_apply w1 w2 β l2 r2 b i j k

end Cert.KernelIdeal.Tile

end
-- ==== Proof.PairSpec.lean ====
/-
  The pairwise layer as ONE function of its three arguments, index by index over the extended reals.

  For node features `x[b, n, c, ·]` (8 batches, 128 nodes, 3 channels, 128 features), a weight `w` of 256 rows whose
  upper 128 rows act on the first node of a pair and whose lower 128 rows act on the second, and a bias row `β`:

      out[b, i, j, c, k] = (Σ_f x[b, i, c, f] · w[f, k]  +  Σ_f x[b, j, c, f] · w[128 + f, k])  +  β[0, k].

  Both programs compute exactly this bracketing: the two projections are added first and the bias last, so no law of
  the extended reals beyond the definition of each operation is needed to join them.
-/
import Idealize.ShloMosaic.PureOps.Ideal
import Idealize.ShloMosaic.Lib.ValueIdx

noncomputable section

namespace Cert.PairSpec

open Idealize.ShloMosaic Idealize.ShloMosaic.ValueIdx

/-- Node features: batch, node, channel, feature. -/
abbrev Nodes : Shape := ⟨4, ![8, 128, 3, 128]⟩
/-- The stacked weight: 256 input rows, 128 output features. -/
abbrev Weights : Shape := ⟨2, ![256, 128]⟩
/-- The bias row. -/
abbrev Bias : Shape := ⟨2, ![1, 128]⟩
/-- The result: batch, first node, second node, channel, output feature. -/
abbrev Pairs : Shape := ⟨5, ![8, 128, 128, 3, 128]⟩

/-- Entry `(f, k)` of the weight's upper half: the factor that meets the FIRST node of a pair. -/
abbrev upper (f k : Fin 128) : Weights.Idx := ix2 (⟨f.val, by omega⟩ : Fin 256) k
/-- Entry `(f, k)` of the weight's lower half: the factor that meets the SECOND node of a pair. -/
abbrev lower (f k : Fin 128) : Weights.Idx := ix2 (⟨128 + f.val, by omega⟩ : Fin 256) k

/-- The layer: at `(b, i, j, c, k)` the projection of node `i` by the upper half plus the projection of node `j` by the
    lower half, then the bias at `k`. -/
def pairLayer (x : FVec Ideal Nodes .f32) (w : FVec Ideal Weights .f32) (β : FVec Ideal Bias .f32) : FVec Ideal Pairs .f32 :=
  fun p =>
    ((∑ f : Fin 128, x (ix4 (p 0 : Fin 8) (p 1 : Fin 128) (p 3 : Fin 3) f) * w (upper f (p 4)))
      + (∑ f : Fin 128, x (ix4 (p 0 : Fin 8) (p 2 : Fin 128) (p 3 : Fin 3) f) * w (lower f (p 4))))
    + β (ix2 (0 : Fin 1) (p 4 : Fin 128))

end Cert.PairSpec

end
-- ==== Proof.PairBlock.lean ====
/-
  What one grid point writes back is its block of the pairwise layer.

  At point (gi, gj) the first-node window holds rows 32·gi … 32·gi+31 of the node axis, the second-node window rows
  16·gj … 16·gj+15, the two weight windows the upper and lower half of the weight (the two slices taken before the
  region), the bias window the bias row; the output block sits at rows 32·gi … of the first-node axis and 16·gj … of
  the second-node axis. Read at a block coordinate (b, i, j, c, k) both sides are
  (Σ_f x[b, 32·gi+i, c, f]·w[f, k] + Σ_f x[b, 16·gj+j, c, f]·w[128+f, k]) + β[0, k].
-/
import proofs.«137841_j9955734192542_1_alg».proof.Proof.RunIdeal
import proofs.«137841_j9955734192542_1_alg».proof.Proof.TileValue
import proofs.«137841_j9955734192542_1_alg».proof.Proof.PairSpec
import Idealize.ShloMosaic.Lib.Pipeline.Value
import Idealize.ShloMosaic.Lib.StableHlo.Run
import Idealize.ShloMosaic.Lib.ValueIdx

noncomputable section

namespace Cert.KernelIdeal.Blocks

open Cert.KernelIdeal Cert.KernelIdeal.Gen Cert.KernelIdeal.Run Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The pairwise layer of the three argument arrays as launched. -/
abbrev layer (c : Dev nD) : Buf (Elt Ideal) ((c : Thread nD τ).loc main_v2) :=
  Cert.PairSpec.pairLayer (m ((c : Thread nD τ).loc main_arg0)) (m ((c : Thread nD τ).loc main_arg1)) (m ((c : Thread nD τ).loc main_arg2))

/-! ### Zero offsets, however spelt -/

private theorem hz2 : (![0, 0] : Fin 2 → Nat) = fun _ => 0 := funext fun a => by fin_cases a <;> rfl
private theorem hz5 : (![0, 0, 0, 0, 0] : Fin 5 → Nat) = fun _ => 0 := funext fun a => by fin_cases a <;> rfl

/-! ### Where each window sits at a grid point -/

/-- The block indices, decided over the 32 grid points: the first-node window moves with the output's first-node axis,
    the second-node window with its second-node axis, and every other block index is zero. -/
private theorem idx_facts : ∀ t : Fin cfg0.N,
    win0_0.index t (0 : Fin 4) = 0 ∧ win0_0.index t (1 : Fin 4) = win0_5.index t (1 : Fin 5)
    ∧ win0_0.index t (2 : Fin 4) = 0 ∧ win0_0.index t (3 : Fin 4) = 0
    ∧ win0_1.index t (0 : Fin 4) = 0 ∧ win0_1.index t (1 : Fin 4) = win0_5.index t (2 : Fin 5)
    ∧ win0_1.index t (2 : Fin 4) = 0 ∧ win0_1.index t (3 : Fin 4) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 5) = 0 ∧ win0_5.index t (3 : Fin 5) = 0 ∧ win0_5.index t (4 : Fin 5) = 0 :=
  (by decide +kernel : ∀ t : Fin grid0.N, _)

/-! ### The two weight halves as the region finds them -/

/-- The upper-half array is the first slice of the weight. -/
private theorem V_upper (c : Dev nD) : (V m c main_v0 : S128x128.Idx → EReal)
    = extractStridedSlice S128x128 ![0, 0] (m ((c : Thread nD τ).loc main_arg1)) slices_S256x128_S128x128_0_0 := by
  dsimp only [V, hostOps0]; after_results

/-- The lower-half array is the second slice of the weight. -/
private theorem V_lower (c : Dev nD) : (V m c main_v1 : S128x128.Idx → EReal)
    = extractStridedSlice S128x128 ![128, 0] (m ((c : Thread nD τ).loc main_arg1)) slices_S256x128_S128x128_128_0 := by
  dsimp only [V, hostOps0]; after_results

/-! ### The loaded channel slabs -/

/-- Of the three channel loads of a first-node block, the channel-`cc` one read at `(b, i, 0, f)` is the block at
    `(b, i, cc, f)`. -/
private theorem chanL_apply (X : Vec Ideal S8x32x3x128 .f32) (b : Fin 8) (i : Fin 32) (cc : Fin 3) (f : Fin 128) :
    Tile.chan cc (View.ld X rL0) (View.ld X rL1) (View.ld X rL2) (ix4 b i (0 : Fin 1) f) = X (ix4 b i cc f) := by
  match cc with
  | ⟨0, _⟩ =>
    exact congrArg X (funext fun a => Fin.ext (by
      match a with
      | ⟨0, _⟩ => show 0 + 1 * b.val = b.val; omega
      | ⟨1, _⟩ => show 0 + 1 * i.val = i.val; omega
      | ⟨2, _⟩ => show 0 + 1 * 0 = 0; rfl
      | ⟨3, _⟩ => show 0 + 1 * f.val = f.val; omega))
  | ⟨1, _⟩ =>
    exact congrArg X (funext fun a => Fin.ext (by
      match a with
      | ⟨0, _⟩ => show 0 + 1 * b.val = b.val; omega
      | ⟨1, _⟩ => show 0 + 1 * i.val = i.val; omega
      | ⟨2, _⟩ => show 1 + 1 * 0 = 1; rfl
      | ⟨3, _⟩ => show 0 + 1 * f.val = f.val; omega))
  | ⟨2, _⟩ =>
    exact congrArg X (funext fun a => Fin.ext (by
      match a with
      | ⟨0, _⟩ => show 0 + 1 * b.val = b.val; omega
      | ⟨1, _⟩ => show 0 + 1 * i.val = i.val; omega
      | ⟨2, _⟩ => show 2 + 1 * 0 = 2; rfl
      | ⟨3, _⟩ => show 0 + 1 * f.val = f.val; omega))

/-- Of the three channel loads of a second-node block, the channel-`cc` one read at `(b, j, 0, f)` is the block at
    `(b, j, cc, f)`. -/
private theorem chanR_apply (X : Vec Ideal S8x16x3x128 .f32) (b : Fin 8) (j : Fin 16) (cc : Fin 3) (f : Fin 128) :
    Tile.chan cc (View.ld X rR0) (View.ld X rR1) (View.ld X rR2) (ix4 b j (0 : Fin 1) f) = X (ix4 b j cc f) := by
  match cc with
  | ⟨0, _⟩ =>
    exact congrArg X (funext fun a => Fin.ext (by
      match a with
      | ⟨0, _⟩ => show 0 + 1 * b.val = b.val; omega
      | ⟨1, _⟩ => show 0 + 1 * j.val = j.val; omega
      | ⟨2, _⟩ => show 0 + 1 * 0 = 0; rfl
      | ⟨3, _⟩ => show 0 + 1 * f.val = f.val; omega))
  | ⟨1, _⟩ =>
    exact congrArg X (funext fun a => Fin.ext (by
      match a with
      | ⟨0, _⟩ => show 0 + 1 * b.val = b.val; omega
      | ⟨1, _⟩ => show 0 + 1 * j.val = j.val; omega
      | ⟨2, _⟩ => show 1 + 1 * 0 = 1; rfl
      | ⟨3, _⟩ => show 0 + 1 * f.val = f.val; omega))
  | ⟨2, _⟩ =>
    exact congrArg X (funext fun a => Fin.ext (by
      match a with
      | ⟨0, _⟩ => show 0 + 1 * b.val = b.val; omega
      | ⟨1, _⟩ => show 0 + 1 * j.val = j.val; omega
      | ⟨2, _⟩ => show 2 + 1 * 0 = 2; rfl
      | ⟨3, _⟩ => show 0 + 1 * f.val = f.val; omega))

/-! ### Each input block read off its array -/

/-- The first-node block at point `t` is rows `32 · (first grid coordinate) + ·` of the node features. -/
private theorem first_block (c : Dev nD) (t : Fin cfg0.N) (y : S8x32x3x128.Idx) (q : Cert.PairSpec.Nodes.Idx)
    (h0 : (q 0).val = (y 0).val) (h1 : (q 1).val = win0_5.index t (1 : Fin 5) * 32 + (y 1).val)
    (h2 : (q 2).val = (y 2).val) (h3 : (q 3).val = (y 3).val) :
    (iblk m c 0 t : Vec Ideal S8x32x3x128 .f32) y
      = (m ((c : Thread nD τ).loc main_arg0) : FVec Ideal Cert.PairSpec.Nodes .f32) q := by
  obtain ⟨e00, e01, e02, e03, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 4) * 8 + 1 * (y 0).val = (q 0).val; rw [e00, h0]; omega
  | ⟨1, _⟩ => show win0_0.index t (1 : Fin 4) * 32 + 1 * (y 1).val = (q 1).val; rw [e01, h1]; omega
  | ⟨2, _⟩ => show win0_0.index t (2 : Fin 4) * 3 + 1 * (y 2).val = (q 2).val; rw [e02, h2]; omega
  | ⟨3, _⟩ => show win0_0.index t (3 : Fin 4) * 128 + 1 * (y 3).val = (q 3).val; rw [e03, h3]; omega

/-- The second-node block at point `t` is rows `16 · (second grid coordinate) + ·` of the node features. -/
private theorem second_block (c : Dev nD) (t : Fin cfg0.N) (y : S8x16x3x128.Idx) (q : Cert.PairSpec.Nodes.Idx)
    (h0 : (q 0).val = (y 0).val) (h1 : (q 1).val = win0_5.index t (2 : Fin 5) * 16 + (y 1).val)
    (h2 : (q 2).val = (y 2).val) (h3 : (q 3).val = (y 3).val) :
    (iblk m c 1 t : Vec Ideal S8x16x3x128 .f32) y
      = (m ((c : Thread nD τ).loc main_arg0) : FVec Ideal Cert.PairSpec.Nodes .f32) q := by
  obtain ⟨-, -, -, -, e10, e11, e12, e13, -⟩ := idx_facts t
  unfold iblk
  rw [View.read_apply]
  show V m c main_arg0 _ = m (c.tc.loc main_arg0) _
  rw [V_main_arg0]
  congr 1
  funext a
  apply Fin.ext
  match a with
  | ⟨0, _⟩ => show win0_1.index t (0 : Fin 4) * 8 + 1 * (y 0).val = (q 0).val; rw [e10, h0]; omega
  | ⟨1, _⟩ => show win0_1.index t (1 : Fin 4) * 16 + 1 * (y 1).val = (q 1).val; rw [e11, h1]; omega
  | ⟨2, _⟩ => show win0_1.index t (2 : Fin 4) * 3 + 1 * (y 2).val = (q 2).val; rw [e12, h2]; omega
  | ⟨3, _⟩ => show win0_1.index t (3 : Fin 4) * 128 + 1 * (y 3).val = (q 3).val; rw [e13, h3]; omega

/-- The upper-half block, loaded whole, at `(f, k)`: the weight's entry that meets the first node. -/
private theorem upper_block (c : Dev nD) (t : Fin cfg0.N) (f k q : Fin 128) (hq : q.val = k.val) :
    View.ld (iblk m c 2 t : Vec Ideal S128x128 .f32) rW (ix2 f k)
      = (m ((c : Thread nD τ).loc main_arg1) : FVec Ideal Cert.PairSpec.Weights .f32) (Cert.PairSpec.upper f q) := by
  obtain ⟨-, -, -, -, -, -, -, -, e20, e21, -⟩ := idx_facts t
  rw [View.ld_unit_zero (S := S128x128) hz2]
  unfold iblk
  rw [View.read_apply]
  show (V m c main_v0 : S128x128.Idx → EReal) _ = _
  rw [V_upper]
  refine extractStridedSlice_apply _ _ _ _ _ fun a => ?_
  match a with
  | ⟨0, _⟩ => show f.val = 0 + (win0_2.index t (0 : Fin 2) * 128 + 1 * f.val); rw [e20]; omega
  | ⟨1, _⟩ => show q.val = 0 + (win0_2.index t (1 : Fin 2) * 128 + 1 * k.val); rw [e21, hq]; omega

/-- The lower-half block, loaded whole, at `(f, k)`: the weight's entry that meets the second node. -/
private theorem lower_block (c : Dev nD) (t : Fin cfg0.N) (f k q : Fin 128) (hq : q.val = k.val) :
    View.ld (iblk m c 3 t : Vec Ideal S128x128 .f32) rW (ix2 f k)
      = (m ((c : Thread nD τ).loc main_arg1) : FVec Ideal Cert.PairSpec.Weights .f32) (Cert.PairSpec.lower f q) := by
  obtain ⟨-, -, -, -, -, -, -, -, -, -, e30, e31, -⟩ := idx_facts t
  rw [View.ld_unit_zero (S := S128x128) hz2]
  unfold iblk
  rw [View.read_apply]
  show (V m c main_v1 : S128x128.Idx → EReal) _ = _
  rw [V_lower]
  refine extractStridedSlice_apply _ _ _ _ _ fun a => ?_
  match a with
  | ⟨0, _⟩ => show 128 + f.val = 128 + (win0_3.index t (0 : Fin 2) * 128 + 1 * f.val); rw [e30]; omega
  | ⟨1, _⟩ => show q.val = 0 + (win0_3.index t (1 : Fin 2) * 128 + 1 * k.val); rw [e31, hq]; omega

/-- The bias block, loaded whole, at `(0, k)`: the bias at `k`. -/
private theorem bias_block (c : Dev nD) (t : Fin cfg0.N) (k q : Fin 128) (hq : q.val = k.val) :
    View.ld (iblk m c 4 t : Vec Ideal S1x128 .f32) rB (ix2 (0 : Fin 1) k)
      = (m ((c : Thread nD τ).loc main_arg2) : FVec Ideal Cert.PairSpec.Bias .f32) (ix2 (0 : Fin 1) q) := by
  obtain ⟨-, -, -, -, -, -, -, -, -, -, -, -, e40, e41, -⟩ := idx_facts t
  rw [View.ld_unit_zero (S := S1x128) hz2]
  unfold iblk
  rw [View.read_apply]
  show V m c main_arg2 _ = m (c.tc.loc main_arg2) _
  rw [V_main_arg2]
  congr 1
  funext a
  apply Fin.ext
  match a with
  | ⟨0, _⟩ => show win0_4.index t (0 : Fin 2) * 1 + 1 * 0 = 0; rw [e40]
  | ⟨1, _⟩ => show win0_4.index t (1 : Fin 2) * 128 + 1 * k.val = q.val; rw [e41, hq]; omega

/-- What point `t` writes back is block `t` of the layer. -/
theorem flushed_eq (c : Dev nD) (t : Fin cfg0.N) :
    (dats m 0 c).flushed 5 t = ((cfg0.win 5).blk t).view.read (Elt Ideal) (layer m c) := by
  obtain ⟨-, -, -, -, -, -, -, -, -, -, -, -, -, -, e50, e53, e54⟩ := idx_facts t
  show (cfg0.win 5).cut (grid0.coords t) ((dats m 0 c).after 5 t) = _
  rw [after0_5]
  unfold out0_5
  rw [View.canon_unit_zero hz5]
  funext j
  obtain ⟨b, i, jj, cc, k, rfl⟩ : ∃ (b : Fin 8) (i : Fin 32) (jj : Fin 16) (cc : Fin 3) (k : Fin 128), j = ix5 b i jj cc k :=
    ⟨j 0, j 1, j 2, j 3, j 4, eq_ix5 j⟩
  refine (Tile.tile_apply (View.ld (iblk m c 2 t) rW) (View.ld (iblk m c 3 t) rW) (View.ld (iblk m c 4 t) rB)
    (View.ld (iblk m c 0 t) rL0) (View.ld (iblk m c 0 t) rL1) (View.ld (iblk m c 0 t) rL2)
    (View.ld (iblk m c 1 t) rR0) (View.ld (iblk m c 1 t) rR1) (View.ld (iblk m c 1 t) rR2) b i jj cc k).trans ?_
  rw [View.read_apply]
  show _ = Cert.PairSpec.pairLayer _ _ _ (((cfg0.win 5).blk t).view.emb (ix5 b i jj cc k))
  unfold Cert.PairSpec.pairLayer
  refine congrArg₂ (· + ·) (congrArg₂ (· + ·)
    (Finset.sum_congr rfl fun f _ => congrArg₂ (· * ·) ?_ ?_)
    (Finset.sum_congr rfl fun f _ => congrArg₂ (· * ·) ?_ ?_)) ?_
  · refine (chanL_apply _ b i cc f).trans (first_block m c t (ix4 b i cc f) _ ?_ ?_ ?_ rfl)
    · show win0_5.index t (0 : Fin 5) * 8 + 1 * b.val = b.val; rw [e50]; omega
    · show win0_5.index t (1 : Fin 5) * 32 + 1 * i.val = win0_5.index t (1 : Fin 5) * 32 + i.val; omega
    · show win0_5.index t (3 : Fin 5) * 3 + 1 * cc.val = cc.val; rw [e53]; omega
  · exact upper_block m c t f k _ (by show win0_5.index t (4 : Fin 5) * 128 + 1 * k.val = k.val; rw [e54]; omega)
  · refine (chanR_apply _ b jj cc f).trans (second_block m c t (ix4 b jj cc f) _ ?_ ?_ ?_ rfl)
    · show win0_5.index t (0 : Fin 5) * 8 + 1 * b.val = b.val; rw [e50]; omega
    · show win0_5.index t (2 : Fin 5) * 16 + 1 * jj.val = win0_5.index t (2 : Fin 5) * 16 + jj.val; omega
    · show win0_5.index t (3 : Fin 5) * 3 + 1 * cc.val = cc.val; rw [e53]; omega
  · exact lower_block m c t f k _ (by show win0_5.index t (4 : Fin 5) * 128 + 1 * k.val = k.val; rw [e54]; omega)
  · exact bias_block m c t k _ (by show win0_5.index t (4 : Fin 5) * 128 + 1 * k.val = k.val; rw [e54]; omega)

end Cert.KernelIdeal.Blocks

end
-- ==== Proof.PairCover.lean ====
/-
  The output blocks tile the output array: the grid is 4 × 8, a block spans 32 rows of the first-node axis and 16 of the
  second-node axis and all of the other three axes, and point (gi, gj) writes the block at (0, gi, gj, 0, 0). So the
  index (b, i, j, c, k) lies in the block of the point (i / 32, j / 16).
-/
import proofs.«137841_j9955734192542_1_alg».proof.Proof.RunIdeal
import Idealize.ShloMosaic.Lib.Pipeline.Value

noncomputable section

namespace Cert.KernelIdeal.Blocks

open Cert.KernelIdeal Cert.KernelIdeal.Gen Cert.KernelIdeal.Run Idealize.ShloMosaic Idealize.ShloMosaic.TcCoe Idealize.SL.Sem

/-- Every position of the 4 × 8 tiling is some grid point's block position (decided over the 32 points). -/
theorem index_onto : ∀ (q1 : Fin 4) (q2 : Fin 8), ∃ t : Fin cfg0.N, win0_5.index t = ![0, q1.val, q2.val, 0, 0] :=
  (by decide +kernel : ∀ (q1 : Fin 4) (q2 : Fin 8), ∃ t : Fin grid0.N, win0_5.index t = ![0, q1.val, q2.val, 0, 0])

/-- An index of the output array is in point `t`'s block iff on each axis its coordinate is in the block's range:
    from the block position times the block's extent, for that extent. -/
theorem mem_block (t : Fin cfg0.N) (i : S8x128x128x3x128.Idx) :
    i ∈ ((cfg0.win 5).blk t).view.set ↔ ∀ a : Fin 5, win0_5.index t a * S8x32x16x3x128.size a ≤ (i a).val
      ∧ (i a).val < win0_5.index t a * S8x32x16x3x128.size a + S8x32x16x3x128.size a := by
  show i ∈ ((View.whole main_v2).slice (win0_5.rect t)).set ↔ _
  rw [View.set_slice_whole, Rect.mem_set_unit]
  exact Iff.rfl

/-- Every index of the output array is in the block of some point (and every point writes its block back). -/
theorem cover (i : S8x128x128x3x128.Idx) :
    ∃ t : Fin cfg0.N, (cfg0.win 5).flush t = true ∧ i ∈ ((cfg0.win 5).blk t).view.set := by
  have h0 : (i 0).val < 8 := (i 0).isLt
  have h1 : (i 1).val < 128 := (i 1).isLt
  have h2 : (i 2).val < 128 := (i 2).isLt
  have h3 : (i 3).val < 3 := (i 3).isLt
  have h4 : (i 4).val < 128 := (i 4).isLt
  -- the point whose block holds the index: first-node coordinate over 32, second-node coordinate over 16
  obtain ⟨t, ht⟩ := index_onto ⟨(i 1).val / 32, by omega⟩ ⟨(i 2).val / 16, by omega⟩
  have q0 : win0_5.index t (0 : Fin 5) = 0 := congrFun ht 0
  have q1 : win0_5.index t (1 : Fin 5) = (i 1).val / 32 := congrFun ht 1
  have q2 : win0_5.index t (2 : Fin 5) = (i 2).val / 16 := congrFun ht 2
  have q3 : win0_5.index t (3 : Fin 5) = 0 := congrFun ht 3
  have q4 : win0_5.index t (4 : Fin 5) = 0 := congrFun ht 4
  refine ⟨t, flush0_5 t, ?_⟩
  rw [mem_block]
  intro a
  match a with
  | ⟨0, _⟩ => show win0_5.index t (0 : Fin 5) * 8 ≤ (i 0).val ∧ (i 0).val < win0_5.index t (0 : Fin 5) * 8 + 8; omega
  | ⟨1, _⟩ => show win0_5.index t (1 : Fin 5) * 32 ≤ (i 1).val ∧ (i 1).val < win0_5.index t (1 : Fin 5) * 32 + 32; omega
  | ⟨2, _⟩ => show win0_5.index t (2 : Fin 5) * 16 ≤ (i 2).val ∧ (i 2).val < win0_5.index t (2 : Fin 5) * 16 + 16; omega
  | ⟨3, _⟩ => show win0_5.index t (3 : Fin 5) * 3 ≤ (i 3).val ∧ (i 3).val < win0_5.index t (3 : Fin 5) * 3 + 3; omega
  | ⟨4, _⟩ => show win0_5.index t (4 : Fin 5) * 128 ≤ (i 4).val ∧ (i 4).val < win0_5.index t (4 : Fin 5) * 128 + 128; omega

end Cert.KernelIdeal.Blocks

end
-- ==== Proof.PairValue.lean ====
/-
  The kernel's run, read: its result array ends holding the pairwise layer of the arguments.

  Every grid point writes back its block of the layer, and the blocks tile the array; so after the last point the array
  is the layer, whatever it held before. The three arguments end as launched.
-/
import proofs.«137841_j9955734192542_1_alg».proof.Proof.PairBlock
import proofs.«137841_j9955734192542_1_alg».proof.Proof.PairCover

noncomputable section

namespace Cert.KernelIdeal.Blocks

open Cert.KernelIdeal Cert.KernelIdeal.Gen Cert.KernelIdeal.Run Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- After every write-back the result array is the layer. -/
theorem final (c : Dev nD) : (dats m 0 c).arrAt 5 cfg0.N = layer m c :=
  (dats m 0 c).arrAt_eq_of_cover 5 (layer m c) (fun t _ => flushed_eq m c t) (fun i => cover i)

/-- Every weakly fair execution terminates with the result array at the layer of the launch contents and the
    arguments unchanged. -/
theorem run : θ_run defs (onTc (τ := τ) (main (F := Ideal))) ⟨m, fun _ => 0, ρ⟩ fun r => ∀ c : Dev nD,
      r.2.mem ((c : Thread nD τ).loc main_v2) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 5).trans (final m c),
      ((h c).1 0).trans ((((dats m 0 c).arrAt_in 0 rfl _).trans ((A_eq m c 0).trans (V_main_arg0 m c)))),
      ((h c).2 main_arg1 (Pipeline.mem_restRefs_of main_arg1 (by decide) (by decide))).trans (V_main_arg1 m c),
      ((h c).1 4).trans ((((dats m 0 c).arrAt_in 4 rfl _).trans ((A_eq m c 4).trans (V_main_arg2 m c))))⟩)
    (run_main m ρ)

end Cert.KernelIdeal.Blocks

end
-- ==== Proof.RefValue.lean ====
/-
  The reference computes the pairwise layer: its two einsums are the two projections, its two broadcasts place node
  `i`'s projection along the second-node axis and node `j`'s along the first-node axis, and the bias row is added last.
-/
import proofs.«137841_j9955734192542_1_alg».proof.Proof.Gen.ReferenceIdeal.Read
import proofs.«137841_j9955734192542_1_alg».proof.Proof.PairSpec

noncomputable section

namespace Cert.ReferenceIdeal.RefValue

open Idealize.ShloMosaic Idealize.ShloMosaic.ValueIdx Cert.ReferenceIdeal Cert.ReferenceIdeal.Gen Cert.ReferenceIdeal.Read

/-- The first projection's left factor: through both broadcasts the node read is the pair's FIRST node. -/
private theorem left_upper (p : S8x128x128x3x128.Idx) (f : Fin 128) :
    lidx_main_v2 (idx_main_v4 (idx_main_v6 p)) f = ix4 (p 0 : Fin 8) (p 1 : Fin 128) (p 3 : Fin 3) f :=
  funext fun a => Fin.ext (by
    match a with
    | ⟨0, _⟩ => rfl
    | ⟨1, _⟩ => rfl
    | ⟨2, _⟩ => rfl
    | ⟨3, _⟩ => rfl)

/-- The first projection's right factor: row `f` of the weight's upper half, at the output feature. -/
private theorem right_upper (p : S8x128x128x3x128.Idx) (f : Fin 128) :
    idx_main_v0 (ridx_main_v2 (idx_main_v4 (idx_main_v6 p)) f) = Cert.PairSpec.upper f (p 4 : Fin 128) :=
  funext fun a => Fin.ext (by
    match a with
    | ⟨0, _⟩ => rfl
    | ⟨1, _⟩ => rfl)

/-- The second projection's left factor: through both broadcasts the node read is the pair's SECOND node. -/
private theorem left_lower (p : S8x128x128x3x128.Idx) (f : Fin 128) :
    lidx_main_v3 (idx_main_v5 (idx_main_v7 p)) f = ix4 (p 0 : Fin 8) (p 2 : Fin 128) (p 3 : Fin 3) f :=
  funext fun a => Fin.ext (by
    match a with
    | ⟨0, _⟩ => rfl
    | ⟨1, _⟩ => rfl
    | ⟨2, _⟩ => rfl
    | ⟨3, _⟩ => rfl)

/-- The second projection's right factor: row `128 + f` of the weight, its lower half, at the output feature. -/
private theorem right_lower (p : S8x128x128x3x128.Idx) (f : Fin 128) :
    idx_main_v1 (ridx_main_v3 (idx_main_v5 (idx_main_v7 p)) f) = Cert.PairSpec.lower f (p 4 : Fin 128) :=
  funext fun a => Fin.ext (by
    match a with
    | ⟨0, _⟩ => rfl
    | ⟨1, _⟩ => rfl)

/-- The bias read: the reshape's remainder by 128 leaves an output feature below 128 unchanged. -/
private theorem bias_idx (p : S8x128x128x3x128.Idx) :
    idx_main_v9 (idx_main_v10 (idx_main_v11 p)) = ix2 (0 : Fin 1) (p 4 : Fin 128) :=
  funext fun a => Fin.ext (by
    match a with
    | ⟨0, _⟩ => rfl
    | ⟨1, _⟩ => exact Nat.mod_eq_of_lt (p 4).isLt)

/-- The reference's last stage is the layer, as functions of the three arguments. -/
theorem ref_eq (x0 : (⟨S8x128x3x128, .f32⟩ : BufTy).Contents (Elt Ideal)) (x1 : (⟨S256x128, .f32⟩ : BufTy).Contents (Elt Ideal))
    (x2 : (⟨S1x128, .f32⟩ : BufTy).Contents (Elt Ideal)) :
    val_main_v12 (F := Ideal) x0 x1 x2 = Cert.PairSpec.pairLayer x0 x1 x2 := by
  funext p
  unfold Cert.PairSpec.pairLayer
  rw [val_main_v12_apply, val_main_v8_apply, val_main_v11_apply, val_main_v6_apply, val_main_v7_apply,
    val_main_v4_apply, val_main_v5_apply, val_main_v2_apply, val_main_v3_apply, val_main_v10_apply, val_main_v9_apply]
  simp only [val_main_v0_apply, val_main_v1_apply, Ideal.addf_def, left_upper, right_upper, left_lower, right_lower,
    bias_idx]
  rfl

end Cert.ReferenceIdeal.RefValue

end
-- ==== Proof.lean ====
/-
  The pairwise layer, kernel against reference.

  Both programs map node features `x[b, n, c, ·]`, a stacked weight `w` (upper half for the first node of a pair, lower
  half for the second) and a bias row `β` to

      out[b, i, j, c, k] = (Σ_f x[b, i, c, f] · w[f, k]  +  Σ_f x[b, j, c, f] · w[128 + f, k])  +  β[0, k]

  (Proof/PairSpec.lean). The reference takes the two projections of every node by two einsums, broadcasts one along
  the second-node axis and the other along the first-node axis, adds them and then the bias (Proof/RefValue.lean). The
  kernel tiles the two node axes 32 × 16: at a tile it projects its 32 first nodes and its 16 second nodes channel by
  channel on the matrix unit — the casts to bfloat16 are the identity over the extended reals and a product into a zero
  accumulator is the plain sum —, broadcasts, adds the bias and stores the three channel slabs as one block
  (Proof/TileValue.lean); each grid point writes back its block of the layer (Proof/PairBlock.lean), the blocks tile the
  result (Proof/PairCover.lean), so the result array ends at the layer (Proof/PairValue.lean). The two sides bracket the
  sum the same way, so no finiteness of the inputs is used.

  The kernel reads the node features through two windows on one array; its frame run holds that array at the two halves of
  the full share (Proof/RunIdeal.lean at the extended reals, Proof/RunBits.lean at words, over Proof/LibSharedFrame.lean).
  The ideal pass rewrote nothing, so the idealization is the kernel's own text and `preserves` has no conjunct.
-/
import proofs.«137841_j9955734192542_1_alg».proof.Defs
import proofs.«137841_j9955734192542_1_alg».proof.Proof.Gen.Kernel
import proofs.«137841_j9955734192542_1_alg».proof.Proof.Gen.KernelIdeal
import proofs.«137841_j9955734192542_1_alg».proof.Proof.Gen.ReferenceIdeal
import proofs.«137841_j9955734192542_1_alg».proof.Proof.Gen.Pre_finite_inputs
import proofs.«137841_j9955734192542_1_alg».proof.Proof.Gen.ReferenceIdeal.Run
import proofs.«137841_j9955734192542_1_alg».proof.Proof.Gen.ReferenceIdeal.Read
import proofs.«137841_j9955734192542_1_alg».proof.Proof.RunBits
import proofs.«137841_j9955734192542_1_alg».proof.Proof.RunIdeal
import proofs.«137841_j9955734192542_1_alg».proof.Proof.PairValue
import proofs.«137841_j9955734192542_1_alg».proof.Proof.RefValue
import Idealize.ShloMosaic.Adequacy
import Idealize.ShloMosaic.Init

noncomputable section

namespace Cert.Proof

open Idealize.ShloMosaic Idealize.SL.Sem

/-- The kernel at words runs to the end and leaves its three arguments as launched. -/
theorem frame_kernel : Cert.frame_Kernel := fun m ρ _ => Cert.Kernel.Run.frame m ρ

/-- So does its reading over the extended reals. -/
theorem frame_kernelIdeal : Cert.frame_KernelIdeal := fun m ρ _ => Cert.KernelIdeal.Run.frame m ρ

/-- The reference is thirteen host operations: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

/-- From memories agreeing on the arguments both programs end with the layer of those arguments. -/
theorem algebraic : Cert.algebraic_KernelIdeal_ReferenceIdeal := by
  intro m ρ m' ρ' _ hagree
  refine ⟨fun c => Cert.KernelIdeal.Blocks.layer m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v12_eq _ _ _).trans (Cert.ReferenceIdeal.RefValue.ref_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
